-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S30720x1024 : Shape := ⟨2, ![30720, 1024]⟩
abbrev S1024x1024 : Shape := ⟨2, ![1024, 1024]⟩
abbrev S30 : Shape := ⟨1, ![30]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S30720x1024 : S_.BroadcastsInDim S30720x1024 (![] : Fin 0 → Fin S30720x1024.rank)
  reducesTo_S30720x1024_S_d0_1 : S30720x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S30 : S_.BroadcastsInDim S30 (![] : Fin 0 → Fin S30.rank)
  reducesTo_S30_S_d0 : S30.ReducesTo [0] S_

variable [Facts]

def fn_part1 {F : FTy → Type} [FloatOps F] (main_v13 : IVec S_ 1) (main_v16 : IVec S30 1) : IVec S_ 1 :=
  let main_c_5 : IVec S_ 1 := constantI S_ 1 1#1
  let main_v17 : IVec S_ 1 := (fun x v => Host.reduce IntOp.andi x v reducesTo_S30_S_d0 h_S_) main_v16 main_c_5
  let main_v18 : IVec S_ 1 := andi main_v13 main_v17
  main_v18

def fn {F : FTy → Type} [FloatOps F] (main_arg0 : FVec F S2048x1024 .f32) (main_arg1 : FVec F S30720x1024 .f32) (main_arg2 : FVec F S1024x1024 .f32) (main_arg3 : FVec F S30 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S30720x1024 .f32 := Host.absf main_arg1
  let main_cst_0 : FVec F S_ .f32 := constant S_ .f32 0x7F800000#32
  let main_v5 : FVec F S30720x1024 .f32 := broadcastInDim S30720x1024 ![] bcast_S_S30720x1024 main_cst_0
  let main_v6 : IVec S30720x1024 1 := cmpf .olt main_v4 main_v5
  let main_c_1 : IVec S_ 1 := constantI S_ 1 1#1
  let main_v7 : IVec S_ 1 := (fun x v => Host.reduce IntOp.andi x v reducesTo_S30720x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S30 .f32 := Host.absf main_arg3
  let main_cst_4 : FVec F S_ .f32 := constant S_ .f32 0x7F800000#32
  let main_v15 : FVec F S30 .f32 := broadcastInDim S30 ![] bcast_S_S30 main_cst_4
  let main_v16 : IVec S30 1 := cmpf .olt main_v14 main_v15
  fn_part1 (F := F) main_v13 main_v16
-- ==== Kernel.lean ====
abbrev S2048x1024 : Shape := ⟨2, ![2048, 1024]⟩
abbrev S30720x1024 : Shape := ⟨2, ![30720, 1024]⟩
abbrev S1024x1024 : Shape := ⟨2, ![1024, 1024]⟩
abbrev S30 : Shape := ⟨1, ![30]⟩
abbrev S1x30 : Shape := ⟨2, ![1, 30]⟩
abbrev S512x128 : Shape := ⟨2, ![512, 128]⟩
abbrev S128x512 : Shape := ⟨2, ![128, 512]⟩
abbrev S3840x512 : Shape := ⟨2, ![3840, 512]⟩
abbrev S512x512 : Shape := ⟨2, ![512, 512]⟩
abbrev S512x128x1 : Shape := ⟨3, ![512, 128, 1]⟩
abbrev S1x1x30 : Shape := ⟨3, ![1, 1, 30]⟩
abbrev S512x128x30 : Shape := ⟨3, ![512, 128, 30]⟩
abbrev S512x3840 : Shape := ⟨2, ![512, 3840]⟩

abbrev nBuf : Space → Nat
  | .hbm => 9
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S30720x1024, .f32⟩
  | .hbm, ⟨2, _⟩ => ⟨S1024x1024, .f32⟩
  | .hbm, ⟨3, _⟩ => ⟨S30, .f32⟩
  | .hbm, ⟨4, _⟩ => ⟨S1024x1024, .f32⟩
  | .hbm, ⟨5, _⟩ => ⟨S1024x1024, .bf16⟩
  | .hbm, ⟨6, _⟩ => ⟨S30720x1024, .bf16⟩
  | .hbm, ⟨7, _⟩ => ⟨S1x30, .f32⟩
  | .hbm, ⟨8, _⟩ => ⟨S2048x1024, .f32⟩
  | .local _ .vmem, ⟨0, _⟩ => ⟨S512x128, .f32⟩
  | .local _ .vmem, ⟨1, _⟩ => ⟨S512x128, .f32⟩
  | .local _ .vmem, ⟨2, _⟩ => ⟨S128x512, .bf16⟩
  | .local _ .vmem, ⟨3, _⟩ => ⟨S128x512, .bf16⟩
  | .local _ .vmem, ⟨4, _⟩ => ⟨S3840x512, .bf16⟩
  | .local _ .vmem, ⟨5, _⟩ => ⟨S3840x512, .bf16⟩
  | .local _ .vmem, ⟨6, _⟩ => ⟨S1x30, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 2, 8], ![false, false, false]⟩

def k0_cond2 (i : grid0.Coords) : BitVec 1 :=
  let arg2 : BitVec 32 := BitVec.ofNat 32 (i 2).val
  let c7_i32 : BitVec 32 := 7#32
  let v34 : BitVec 1 := Scalar.cmpi .eq arg2 c7_i32
  let v35 : BitVec 32 := Scalar.extui v34
  let c0_i32_18 : BitVec 32 := 0#32
  let v36 : BitVec 1 := Scalar.cmpi .ne v35 c0_i32_18
  v36

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S3840x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 1 → Memref sig .tc .vmem S1x30 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  transposes_S1024x1024_S1024x1024_1_0 : S1024x1024.Transposes [1, 0] S1024x1024
  bitsLt_bf16_f32 : FTy.bits .bf16 < FTy.bits .f32
  shapeCasts_S30_S1x30 : S30.ShapeCasts S1x30
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x128_S512x128_0_0 : ∀ a, (![0, 0] : Fin 2 → Nat) a + S512x128.size a ≤ S512x128.size a
  h_S512x128 : 0 < S512x128.numel
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x30_S1x30_0_0 : ∀ a, (![0, 0] : Fin 2 → Nat) a + S1x30.size a ≤ S1x30.size a
  h_S1x30 : 0 < S1x30.numel
  shapeCasts_S1x30_S30 : S1x30.ShapeCasts S30
  shapeCasts_S512x128_S512x128x1 : S512x128.ShapeCasts S512x128x1
  shapeCasts_S30_S1x1x30 : S30.ShapeCasts S1x1x30
  broadcasts_S512x128x1_S512x128x30 : S512x128x1.Broadcasts S512x128x30
  broadcasts_S1x1x30_S512x128x30 : S1x1x30.Broadcasts S512x128x30
  shapeCasts_S512x128x30_S512x3840 : S512x128x30.ShapeCasts S512x3840
  inb_S3840x512_S3840x512_0_0 : ∀ a, (![0, 0] : Fin 2 → Nat) a + S3840x512.size a ≤ S3840x512.size a
  h_S3840x512 : 0 < S3840x512.numel
  shapeCasts_S3840x512_S3840x512 : S3840x512.ShapeCasts S3840x512
  dot_S512x128_S128x512_S512x512_1_0_0_1_n_n_wf : DotDims.WF S512x128 S128x512 S512x512 [1] [0] [0] [1] [] []
  dot_S512x3840_S3840x512_S512x512_1_0_0_1_n_n_wf : DotDims.WF S512x3840 S3840x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S2048x1024.size a
  hwx0_0 : ∀ i : grid0.Coords, EltTy.bits .f32 = 32 ∨ (Rect.block (s := S2048x1024) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S1024x1024.size a
  hwx0_1 : ∀ i : grid0.Coords, EltTy.bits .bf16 = 32 ∨ (Rect.block (s := S1024x1024) S128x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3840x512.size a ≤ S30720x1024.size a
  hwx0_2 : ∀ i : grid0.Coords, EltTy.bits .bf16 = 32 ∨ (Rect.block (s := S30720x1024) S3840x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x30.size a ≤ S1x30.size a
  hwx0_3 : ∀ i : grid0.Coords, EltTy.bits .f32 = 32 ∨ (Rect.block (s := S1x30) S1x30.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S2048x1024.size a
  hwx0_4 : ∀ i : grid0.Coords, EltTy.bits .f32 = 32 ∨ (Rect.block (s := S2048x1024) S512x512.size (cc0_transform_4 i) (hinb0_4 i)).WholeWords (EltTy.packing .f32)

variable [Facts₀]

def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf
def dot_S512x3840_S3840x512_S512x512_1_0_0_1_n_n : DotDims S512x3840 S3840x512 S512x512 where
  lhsContracting := [1]
  rhsContracting := [0]
  lhsNonContracting := [0]
  rhsNonContracting := [1]
  lhsBatch := []
  rhsBatch := []
  wf := dot_S512x3840_S3840x512_S512x512_1_0_0_1_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S3840x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x30.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S512x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2048x1024 : Shape := ⟨2, ![2048, 1024]⟩
abbrev S30720x1024 : Shape := ⟨2, ![30720, 1024]⟩
abbrev S1024x1024 : Shape := ⟨2, ![1024, 1024]⟩
abbrev S30 : Shape := ⟨1, ![30]⟩
abbrev S2048x1024x1 : Shape := ⟨3, ![2048, 1024, 1]⟩
abbrev S1x1x30 : Shape := ⟨3, ![1, 1, 30]⟩
abbrev S2048x1024x30 : Shape := ⟨3, ![2048, 1024, 30]⟩
abbrev S_ : Shape := ⟨0, ![]⟩
abbrev S2048x30720 : Shape := ⟨2, ![2048, 30720]⟩

abbrev nBuf : Space → Nat
  | .hbm => 18
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S30720x1024, .f32⟩
  | .hbm, ⟨2, _⟩ => ⟨S1024x1024, .f32⟩
  | .hbm, ⟨3, _⟩ => ⟨S30, .f32⟩
  | .hbm, ⟨4, _⟩ => ⟨S2048x1024, .f32⟩
  | .hbm, ⟨5, _⟩ => ⟨S2048x1024x1, .f32⟩
  | .hbm, ⟨6, _⟩ => ⟨S1x1x30, .f32⟩
  | .hbm, ⟨7, _⟩ => ⟨S2048x1024x30, .f32⟩
  | .hbm, ⟨8, _⟩ => ⟨S2048x1024x30, .f32⟩
  | .hbm, ⟨9, _⟩ => ⟨S2048x1024x30, .f32⟩
  | .hbm, ⟨10, _⟩ => ⟨S2048x1024x30, .f32⟩
  | .hbm, ⟨11, _⟩ => ⟨S_, .f32⟩
  | .hbm, ⟨12, _⟩ => ⟨S2048x1024x30, .f32⟩
  | .hbm, ⟨13, _⟩ => ⟨S2048x1024x30, .f32⟩
  | .hbm, ⟨14, _⟩ => ⟨S2048x1024x30, .f32⟩
  | .hbm, ⟨15, _⟩ => ⟨S2048x30720, .f32⟩
  | .hbm, ⟨16, _⟩ => ⟨S2048x1024, .f32⟩
  | .hbm, ⟨17, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  bcast_S2048x1024_S2048x1024x1_0_1 : S2048x1024.BroadcastsInDim S2048x1024x1 (![0, 1] : Fin 2 → Fin S2048x1024x1.rank)
  bcast_S30_S1x1x30_2 : S30.BroadcastsInDim S1x1x30 (![2] : Fin 1 → Fin S1x1x30.rank)
  bcast_S2048x1024x1_S2048x1024x30_0_1_2 : S2048x1024x1.BroadcastsInDim S2048x1024x30 (![0, 1, 2] : Fin 3 → Fin S2048x1024x30.rank)
  bcast_S1x1x30_S2048x1024x30_0_1_2 : S1x1x30.BroadcastsInDim S2048x1024x30 (![0, 1, 2] : Fin 3 → Fin S2048x1024x30.rank)
  bcast_S_S2048x1024x30 : S_.BroadcastsInDim S2048x1024x30 (![] : Fin 0 → Fin S2048x1024x30.rank)
  shapeCasts_S2048x1024x30_S2048x30720 : S2048x1024x30.ShapeCasts S2048x30720
  dot_S2048x1024_S1024x1024_S2048x1024_1_1_0_0_n_n_wf : DotDims.WF S2048x1024 S1024x1024 S2048x1024 [1] [1] [0] [0] [] []
  dot_S2048x30720_S30720x1024_S2048x1024_1_0_0_1_n_n_wf : DotDims.WF S2048x30720 S30720x1024 S2048x1024 [1] [0] [0] [1] [] []

variable [Facts₀]

def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf
def dot_S2048x30720_S30720x1024_S2048x1024_1_0_0_1_n_n : DotDims S2048x30720 S30720x1024 S2048x1024 where
  lhsContracting := [1]
  rhsContracting := [0]
  lhsNonContracting := [0]
  rhsNonContracting := [1]
  lhsBatch := []
  rhsBatch := []
  wf := dot_S2048x30720_S30720x1024_S2048x1024_1_0_0_1_n_n_wf

class Facts : Prop extends Facts₀ where

variable [Facts]
-- ==== Proof.Pieces.lean ====
/-
  What one grid point leaves behind, as a pure term of what it loaded.

  The body keeps a running 512×512 sum in a scratch buffer. At a point it (first point of a run only) stores zeros
  into it, then stores "scratch + x·bwᵀ", then stores "scratch + basis(x)·sw", each time the whole buffer; at the
  last point of a run it copies the buffer to the output block. Every store covers the buffer, so what the buffer
  holds afterwards is the LAST payload, and each intermediate load reads the payload stored just before it. The
  three control cases therefore leave
      first point of a run :  pointUpdate x bw sw g 0
      any later point      :  pointUpdate x bw sw g prev        (prev: what the point before left)
  in the scratch, where `pointUpdate` is the body's linear accumulation payload followed by its radial-basis one,
  and the last point of a run puts that same term in the output block.
-/
import proofs.«107807_j11879879540919_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

/-- The offsets of a whole-buffer access are all zero. -/
theorem zero_offsets : (![0, 0] : Fin 2 → ℕ) = fun _ => 0 := by
  funext a; match a with | ⟨0, _⟩ => rfl | ⟨1, _⟩ => rfl

/-- A whole-buffer load after a whole-buffer store reads that store's payload, whatever was stored earlier. -/
theorem readCov_cons_whole {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

/-- One point's update of the running sum `acc`: the linear partial product added, then the radial-basis one. -/
abbrev pointUpdate (x0 : Vec F S512x128 .f32) (x1 : Vec F S128x512 .bf16) (x2 : Vec F S3840x512 .bf16) (x3 : Vec F S1x30 .f32)
    (acc : Vec F S512x512 .f32) : Vec F S512x512 .f32 :=
  k0_pay3 x0 x3 x2 (k0_pay2 x0 x1 acc)

/-- The first point of a run starts the sum from the zero payload. -/
theorem scratch_first (c : Dev nD) (i : grid0.Coords) (arg3 : Memref sig .tc .vmem S512x128 .f32) (harg3 : arg3.IsWhole) (arg4 : Memref sig .tc .vmem S128x512 .bf16) (harg4 : arg4.IsWhole) (arg5 : Memref sig .tc .vmem S3840x512 .bf16) (harg5 : arg5.IsWhole) (arg6 : Memref sig .tc .vmem S1x30 .f32) (harg6 : arg6.IsWhole) (arg7 : Memref sig .tc .vmem S512x512 .f32) (harg7 : arg7.IsWhole) (arg8 : Memref sig .tc .vmem S512x512 .f32) (harg8 : arg8.IsWhole) (hc0 : cond0_0 i) (hc1 : ¬cond0_1 i)
    (x0 : Vec F S512x128 .f32) (x1 : Vec F S128x512 .bf16) (x2 : Vec F S3840x512 .bf16) (x3 : Vec F S1x30 .f32) :
    sout0_A_0 c i arg3 harg3 arg4 harg4 arg5 harg5 arg6 harg6 arg7 harg7 arg8 harg8 hc0 hc1 x0 x1 x2 x3 = pointUpdate x0 x1 x2 x3 (k0_pay1 (F := F)) := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S512x512) zero_offsets]
  simp only [View.readAt_eq_ld, harg3.read_unread, harg4.read_unread, harg5.read_unread, harg6.read_unread, harg8.read_unread,
    View.ld_unit_zero (S := S512x128) zero_offsets, View.ld_unit_zero (S := S128x512) zero_offsets, View.ld_unit_zero (S := S3840x512) zero_offsets,
    View.ld_unit_zero (S := S1x30) zero_offsets, View.ld_unit_zero (S := S512x512) zero_offsets, readCov_cons_whole (S := S512x512) _ zero_offsets]

/-- A middle point of a run updates what the point before left. -/
theorem scratch_middle (c : Dev nD) (i : grid0.Coords) (arg3 : Memref sig .tc .vmem S512x128 .f32) (harg3 : arg3.IsWhole) (arg4 : Memref sig .tc .vmem S128x512 .bf16) (harg4 : arg4.IsWhole) (arg5 : Memref sig .tc .vmem S3840x512 .bf16) (harg5 : arg5.IsWhole) (arg6 : Memref sig .tc .vmem S1x30 .f32) (harg6 : arg6.IsWhole) (arg7 : Memref sig .tc .vmem S512x512 .f32) (harg7 : arg7.IsWhole) (arg8 : Memref sig .tc .vmem S512x512 .f32) (harg8 : arg8.IsWhole) (hc0 : ¬cond0_0 i) (hc1 : ¬cond0_1 i)
    (x0 : Vec F S512x128 .f32) (x1 : Vec F S128x512 .bf16) (x2 : Vec F S3840x512 .bf16) (x3 : Vec F S1x30 .f32) (xs0 : Vec F S512x512 .f32) :
    sout0_B_0 c i arg3 harg3 arg4 harg4 arg5 harg5 arg6 harg6 arg7 harg7 arg8 harg8 hc0 hc1 x0 x1 x2 x3 xs0 = pointUpdate x0 x1 x2 x3 xs0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  sl_unfold_words
  rw [View.canon_cons_unit_zero (S := S512x512) zero_offsets]
  simp only [View.readAt_eq_ld, harg3.read_unread, harg4.read_unread, harg5.read_unread, harg6.read_unread, harg8.read_unread,
    View.ld_unit_zero (S := S512x128) zero_offsets, View.ld_unit_zero (S := S128x512) zero_offsets, View.ld_unit_zero (S := S3840x512) zero_offsets,
    View.ld_unit_zero (S := S1x30) zero_offsets, View.ld_unit_zero (S := S512x512) zero_offsets, readCov_cons_whole (S := S512x512) _ zero_offsets]

/-- So does the last point of a run, -/
theorem scratch_last (c : Dev nD) (i : grid0.Coords) (arg3 : Memref sig .tc .vmem S512x128 .f32) (harg3 : arg3.IsWhole) (arg4 : Memref sig .tc .vmem S128x512 .bf16) (harg4 : arg4.IsWhole) (arg5 : Memref sig .tc .vmem S3840x512 .bf16) (harg5 : arg5.IsWhole) (arg6 : Memref sig .tc .vmem S1x30 .f32) (harg6 : arg6.IsWhole) (arg7 : Memref sig .tc .vmem S512x512 .f32) (harg7 : arg7.IsWhole) (arg8 : Memref sig .tc .vmem S512x512 .f32) (harg8 : arg8.IsWhole) (hc0 : ¬cond0_0 i) (hc1 : cond0_1 i)
    (x0 : Vec F S512x128 .f32) (x1 : Vec F S128x512 .bf16) (x2 : Vec F S3840x512 .bf16) (x3 : Vec F S1x30 .f32) (xs0 : Vec F S512x512 .f32) :
    sout0_C_0 c i arg3 harg3 arg4 harg4 arg5 harg5 arg6 harg6 arg7 harg7 arg8 harg8 hc0 hc1 x0 x1 x2 x3 xs0 = pointUpdate x0 x1 x2 x3 xs0 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_cons_unit_zero (S := S512x512) zero_offsets]
  simp only [View.readAt_eq_ld, harg3.read_unread, harg4.read_unread, harg5.read_unread, harg6.read_unread, harg8.read_unread,
    View.ld_unit_zero (S := S512x128) zero_offsets, View.ld_unit_zero (S := S128x512) zero_offsets, View.ld_unit_zero (S := S3840x512) zero_offsets,
    View.ld_unit_zero (S := S1x30) zero_offsets, View.ld_unit_zero (S := S512x512) zero_offsets, readCov_cons_whole (S := S512x512) _ zero_offsets]

/-- and it stores that updated sum, whole, into the output block. -/
theorem out_last (c : Dev nD) (i : grid0.Coords) (arg3 : Memref sig .tc .vmem S512x128 .f32) (harg3 : arg3.IsWhole) (arg4 : Memref sig .tc .vmem S128x512 .bf16) (harg4 : arg4.IsWhole) (arg5 : Memref sig .tc .vmem S3840x512 .bf16) (harg5 : arg5.IsWhole) (arg6 : Memref sig .tc .vmem S1x30 .f32) (harg6 : arg6.IsWhole) (arg7 : Memref sig .tc .vmem S512x512 .f32) (harg7 : arg7.IsWhole) (arg8 : Memref sig .tc .vmem S512x512 .f32) (harg8 : arg8.IsWhole) (hc0 : ¬cond0_0 i) (hc1 : cond0_1 i)
    (x0 : Vec F S512x128 .f32) (x1 : Vec F S128x512 .bf16) (x2 : Vec F S3840x512 .bf16) (x3 : Vec F S1x30 .f32) (xs0 : Vec F S512x512 .f32) :
    out0_C_4 c i arg3 harg3 arg4 harg4 arg5 harg5 arg6 harg6 arg7 harg7 arg8 harg8 hc0 hc1 x0 x1 x2 x3 xs0 = pointUpdate x0 x1 x2 x3 xs0 := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_cons_unit_zero (S := S512x512) zero_offsets]
  simp only [View.readAt_eq_ld, harg3.read_unread, harg4.read_unread, harg5.read_unread, harg6.read_unread, harg8.read_unread,
    View.ld_unit_zero (S := S512x128) zero_offsets, View.ld_unit_zero (S := S128x512) zero_offsets, View.ld_unit_zero (S := S3840x512) zero_offsets,
    View.ld_unit_zero (S := S1x30) zero_offsets, View.ld_unit_zero (S := S512x512) zero_offsets, readCov_cons_whole (S := S512x512) _ zero_offsets]

end Cert.KernelIdeal.Pieces

end
-- ==== Proof.Spec.lean ====
/-
  The layer as one function of its four arguments, and the law that joins a feature-blocked evaluation to it.

  For a batch row `b` and an output feature `o`,
      layer x sw bw g (b, o) = ∑ i, x[b, i] · bw[o, i]  +  ∑ c, rbf (x[b, c / 30]) (g[c % 30]) · sw[c, o],
  the first sum over the 1024 input features, the second over the 30720 pairs (feature, centre) laid out
  feature-major, with `rbf x g = exp (-20 · ((x - g) · (x - g)))`.

  The blocked evaluation cuts the input features into 8 runs of 128 (so the pairs into 8 runs of 3840) and adds, run
  after run, the two partial products of that run. Over the extended reals addition is commutative and associative and
  multiplication is associative, so the blocked sum is the whole one, with no condition on the entries.
-/
import Idealize.ShloMosaic.PureOps.Ideal.Laws
import Idealize.ShloMosaic.Lib.ValueIdx
import Mathlib.Algebra.BigOperators.Fin
import Mathlib.Logic.Equiv.Fin.Basic

noncomputable section

open scoped BigOperators

namespace Cert.RbfLayer

open Idealize.ShloMosaic Idealize.ShloMosaic.ValueIdx

/-! ## A sum over `K · n` indices, run by run -/

/-- Position `i` of run `k` among `K` runs of length `n`. -/
abbrev inRun {K n N : ℕ} (h : K * n = N) (k : Fin K) (i : Fin n) : Fin N :=
  ⟨k.val * n + i.val, by
    have h1 : k.val * n + i.val < (k.val + 1) * n := by rw [Nat.succ_mul]; exact Nat.add_lt_add_left i.isLt _
    exact h ▸ Nat.lt_of_lt_of_le h1 (Nat.mul_le_mul_right n k.isLt)⟩

/-- A sum over `K · n` indices is the sum over the runs of the sums inside each run. -/
theorem sum_runs {M : Type*} [AddCommMonoid M] {K n N : ℕ} (h : K * n = N) (f : Fin N → M) :
    ∑ j, f j = ∑ k : Fin K, ∑ i : Fin n, f (inRun h k i) := by
  subst h
  rw [← Equiv.sum_comp finProdFinEquiv f, Fintype.sum_prod_type]
  refine Finset.sum_congr rfl fun k _ => Finset.sum_congr rfl fun i _ => congrArg f (Fin.ext ?_)
  show i.val + n * k.val = k.val * n + i.val
  rw [Nat.mul_comm, Nat.add_comm]

/-! ## The radial basis value -/

/-- The factor `-20` of the exponent. -/
abbrev negTwenty : EReal := Ideal.ofBits .f32 0xC1A00000#32

/-- `exp (-20 · (x - g)²)`, the square taken first. -/
def rbf (x g : EReal) : EReal := Ideal.exp (negTwenty * ((x - g) * (x - g)))

/-- The same value with the factor multiplied into the difference first: the product is associative. -/
theorem exp_scaled_diff_mul_diff (x g : EReal) : Ideal.exp (negTwenty * (x - g) * (x - g)) = rbf x g := by
  unfold rbf; rw [mul_assoc]

/-! ## The layer, and one run's share of it -/

abbrev SX : Shape := ⟨2, ![2048, 1024]⟩
abbrev SSw : Shape := ⟨2, ![30720, 1024]⟩
abbrev SBw : Shape := ⟨2, ![1024, 1024]⟩
abbrev SG : Shape := ⟨1, ![30]⟩

/-- The feature of pair `c`. -/
abbrev featOf (c : Fin 30720) : Fin 1024 := ⟨c.val / 30, by have := c.isLt; omega⟩
/-- The centre of pair `c`. -/
abbrev centreOf {n : ℕ} (c : Fin n) : Fin 30 := ⟨c.val % 30, Nat.mod_lt _ (by decide)⟩

/-- The layer's value at batch row `j 0` and output feature `j 1`. -/
def layer (x : FVec Ideal SX .f32) (sw : FVec Ideal SSw .f32) (bw : FVec Ideal SBw .f32) (g : FVec Ideal SG .f32) :
    FVec Ideal SX .f32 := fun j =>
  (∑ i : Fin 1024, x (ix2 (j 0) i) * bw (ix2 (j 1) i))
    + ∑ c : Fin 30720, rbf (x (ix2 (j 0) (featOf c))) (g (ix1 (centreOf c))) * sw (ix2 c (j 1))

/-- Row `p` of batch tile `r`; output feature `q` of feature tile `s`. -/
abbrev rowOf (r : Fin 4) (p : Fin 512) : Fin 2048 := ⟨r.val * 512 + p.val, by have := r.isLt; have := p.isLt; omega⟩
abbrev outOf (s : Fin 2) (q : Fin 512) : Fin 1024 := ⟨s.val * 512 + q.val, by have := s.isLt; have := q.isLt; omega⟩
/-- Input feature `i` of run `k`; the feature of pair `c` of run `k`; pair `c` of run `k`. -/
abbrev featIn (k : Fin 8) (i : Fin 128) : Fin 1024 := ⟨k.val * 128 + i.val, by have := k.isLt; have := i.isLt; omega⟩
abbrev featOfIn (k : Fin 8) (c : Fin 3840) : Fin 1024 := ⟨k.val * 128 + c.val / 30, by have := k.isLt; have := c.isLt; omega⟩
abbrev pairIn (k : Fin 8) (c : Fin 3840) : Fin 30720 := ⟨k.val * 3840 + c.val, by have := k.isLt; have := c.isLt; omega⟩

/-- What run `k` of the input features adds to entry `(p, q)` of tile `(r, s)`: its part of the linear term plus
    its part of the radial-basis term. -/
def tile (x : FVec Ideal SX .f32) (sw : FVec Ideal SSw .f32) (bw : FVec Ideal SBw .f32) (g : FVec Ideal SG .f32)
    (r : Fin 4) (s : Fin 2) (k : Fin 8) (p q : Fin 512) : EReal :=
  (∑ i : Fin 128, x (ix2 (rowOf r p) (featIn k i)) * bw (ix2 (outOf s q) (featIn k i)))
    + ∑ c : Fin 3840, rbf (x (ix2 (rowOf r p) (featOfIn k c))) (g (ix1 (centreOf c))) * sw (ix2 (pairIn k c) (outOf s q))

/-- THE LAW. The layer at an entry of tile `(r, s)` is the sum over the 8 runs of what each adds. -/
theorem layer_eq_sum_tile (x : FVec Ideal SX .f32) (sw : FVec Ideal SSw .f32) (bw : FVec Ideal SBw .f32) (g : FVec Ideal SG .f32)
    (r : Fin 4) (s : Fin 2) (p q : Fin 512) :
    layer x sw bw g (ix2 (rowOf r p) (outOf s q)) = ∑ k : Fin 8, tile x sw bw g r s k p q := by
  unfold layer tile
  rw [Finset.sum_add_distrib]
  show (∑ i : Fin 1024, x (ix2 (rowOf r p) i) * bw (ix2 (outOf s q) i))
      + ∑ c : Fin 30720, rbf (x (ix2 (rowOf r p) (featOf c))) (g (ix1 (centreOf c))) * sw (ix2 c (outOf s q)) = _
  rw [sum_runs (K := 8) (n := 128) (by norm_num) (fun i : Fin 1024 => x (ix2 (rowOf r p) i) * bw (ix2 (outOf s q) i)),
    sum_runs (K := 8) (n := 3840) (by norm_num)
      (fun c : Fin 30720 => rbf (x (ix2 (rowOf r p) (featOf c))) (g (ix1 (centreOf c))) * sw (ix2 c (outOf s q)))]
  refine congrArg₂ (· + ·) rfl (Finset.sum_congr rfl fun k _ => Finset.sum_congr rfl fun c _ => ?_)
  have hk := k.isLt
  have hc := c.isLt
  have e1 : featOf (inRun (K := 8) (n := 3840) (N := 30720) (by norm_num) k c) = featOfIn k c :=
    Fin.ext (by show (k.val * 3840 + c.val) / 30 = k.val * 128 + c.val / 30; omega)
  have e2 : centreOf (inRun (K := 8) (n := 3840) (N := 30720) (by norm_num) k c) = centreOf c :=
    Fin.ext (by show (k.val * 3840 + c.val) % 30 = c.val % 30; omega)
  rw [e1, e2]

end Cert.RbfLayer

end
-- ==== Proof.LibMatmulAt.lean ====
/-
  A plain matrix product read at an entry, at the ideal values.

  For dimension numbers that contract the left operand's columns against the right operand's rows, with no batch
  axis — `[M, K] · [K, N] → [M, N]` — the product into a zero accumulator has, at row `o` and column `t`, the
  entry `∑ c, A[o, c] · B[c, t]`. The contraction's index set has one axis; the sum over it is re-indexed by that
  axis's coordinate.
-/
import Idealize.ShloMosaic.PureOps.Ideal.Laws
import Idealize.ShloMosaic.Lib.ValueIdx

noncomputable section

open scoped BigOperators

namespace Cert.LibMatmulAt

open Idealize.ShloMosaic Idealize.ShloMosaic.ValueIdx

variable {M K N : ℕ} (D : DotDims ⟨2, ![M, K]⟩ ⟨2, ![K, N]⟩ ⟨2, ![M, N]⟩)

/-- Two spellings of one axis read one coordinate. -/
theorem coord_congr {s : Shape} (i : s.Idx) (p q : ℕ) (hp : p < s.rank) (hq : q < s.rank) (h : p = q) :
    (i ⟨p, hp⟩).val = (i ⟨q, hq⟩).val := by subst h; rfl

/-- The left operand's row is the result's row. -/
theorem lhs_row (hb : D.lhsBatch = []) (hn : D.lhsNonContracting = [0]) (i : (⟨2, ![M, N]⟩ : Shape).Idx) (q : D.contr.Idx) :
    (D.lhsIdx i q 0).val = (i 0).val := by
  unfold DotDims.lhsIdx
  rw [dif_neg (by rw [hb]; exact List.not_mem_nil), dif_pos (by rw [hn]; exact List.mem_singleton.mpr rfl)]
  simp only [Fin.val_cast]
  exact coord_congr i _ _ _ _ (by simp [hb, hn])

/-- The right operand's column is the result's column. -/
theorem rhs_col (hb : D.rhsBatch = []) (hlb : D.lhsBatch = []) (hln : D.lhsNonContracting = [0]) (hn : D.rhsNonContracting = [1])
    (i : (⟨2, ![M, N]⟩ : Shape).Idx) (q : D.contr.Idx) :
    (D.rhsIdx i q 1).val = (i 1).val := by
  unfold DotDims.rhsIdx
  rw [dif_neg (by rw [hb]; exact List.not_mem_nil), dif_pos (by rw [hn]; exact List.mem_singleton.mpr rfl)]
  simp only [Fin.val_cast]
  exact coord_congr i _ _ _ _ (by simp [hn, hlb, hln])

/-- The contraction has one axis, of extent `K`. -/
theorem contr_rank (hc : D.lhsContracting = [1]) : D.contr.rank = 1 := by rw [D.rank_contr, hc]; rfl

theorem contr_size (hc : D.lhsContracting = [1]) : D.contr.size ⟨0, by rw [contr_rank D hc]; exact Nat.one_pos⟩ = K := by
  rw [D.size_contr 0 (by rw [hc]; exact Nat.one_pos)]
  simp [hc]

/-- THE PRODUCT AT AN ENTRY. -/
theorem matmul_zero_at {φ₁ φ₂ : FTy} (hlc : D.lhsContracting = [1]) (hrc : D.rhsContracting = [0]) (hlb : D.lhsBatch = [])
    (hrb : D.rhsBatch = []) (hln : D.lhsNonContracting = [0]) (hrn : D.rhsNonContracting = [1])
    (prec : Option ContractPrecision) (A : FVec Ideal ⟨2, ![M, K]⟩ φ₁) (B : FVec Ideal ⟨2, ![K, N]⟩ φ₂) (o : Fin M) (t : Fin N) :
    FloatOps.matmul D prec A B (constant ⟨2, ![M, N]⟩ .f32 0x00000000#32) (ix2 o t) = ∑ c : Fin K, A (ix2 o c) * B (ix2 c t) := by
  rw [Ideal.matmul_constant_zero_apply, ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 o t) ((contrEquiv1 D K (contr_rank D hlc) (contr_size D hlc)).symm k) = ix2 o k :=
    funext fun a => Fin.ext (by
      match a with
      | ⟨0, _⟩ => exact lhs_row D hlb hln _ _
      | ⟨1, _⟩ => exact (D.lhsIdx_val_of_single hlc _ _).trans hk)
  have er : D.rhsIdx (ix2 o t) ((contrEquiv1 D K (contr_rank D hlc) (contr_size D hlc)).symm k) = ix2 k t :=
    funext fun a => Fin.ext (by
      match a with
      | ⟨0, _⟩ => exact (D.rhsIdx_val_of_single hrc _ _).trans hk
      | ⟨1, _⟩ => exact rhs_col D hrb hlb hln hrn _ _)
  rw [el, er]

end Cert.LibMatmulAt

end
-- ==== Proof.Payload.lean ====
/-
  One point's update of the running sum, read at an entry, at the ideal values.

  At entry `(p, q)` of the 512×512 tile the update of a running sum `acc` is
      acc[p, q] + ∑ i, x[p, i] · bw[i, q] + ∑ c, rbf (x[p, c / 30]) (g[0, c % 30]) · sw[c, q]
  for the point's blocks `x` [512, 128], `bw` [128, 512] (already transposed), `sw` [3840, 512] and `g` [1, 30]:
  a change of float format is the identity, each matrix product into a zero accumulator is the sum over its
  contracted axis, and the basis tensor [512, 128, 30] flattened to [512, 3840] reads pair `c` at feature `c / 30`
  and centre `c % 30`.
-/
import proofs.«107807_j11879879540919_1_alg».proof.Proof.Gen.KernelIdeal.Skeleton
import proofs.«107807_j11879879540919_1_alg».proof.Proof.Gen.KernelIdeal
import proofs.«107807_j11879879540919_1_alg».proof.Proof.Spec
import proofs.«107807_j11879879540919_1_alg».proof.Proof.LibMatmulAt
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx Cert.RbfLayer

/-! ## The layout operations of the basis tensor, at an index -/

section Layout
variable {α : Type}

/-- The block `x` with a trailing unit axis, broadcast along the 30 centres, reads `x[p, i]` whatever the centre. -/
theorem feature_broadcast_apply (x : S512x128.Idx → α) (h : S512x128.ShapeCasts S512x128x1) (h' : S512x128x1.Broadcasts S512x128x30)
    (p : Fin 512) (i : Fin 128) (g : Fin 30) :
    broadcastTo S512x128x30 (shapeCast S512x128x1 x h) h' (ix3 p i g) = x (ix2 p i) := by
  rw [broadcastTo_apply _ h' (ix3 p i g) (ix3 p i (0 : Fin 1)) (fun a => match a with
    | ⟨0, _⟩ => by show p.val = if (512 : ℕ) = 1 then 0 else p.val; rw [if_neg (by decide)]
    | ⟨1, _⟩ => by show i.val = if (128 : ℕ) = 1 then 0 else i.val; rw [if_neg (by decide)]
    | ⟨2, _⟩ => by show 0 = if (1 : ℕ) = 1 then 0 else g.val; rw [if_pos rfl])]
  exact shapeCast_apply x h _ _ (by
    rw [Shape.rowMajor_val_two, Shape.rowMajor_val_three]
    show p.val * 128 + i.val = (p.val * 128 + i.val) * 1 + 0
    omega)

/-- The centres `g` [1, 30], cast to [30] then to [1, 1, 30] and broadcast over rows and features, read `g[0, c]`. -/
theorem centre_broadcast_apply (g : S1x30.Idx → α) (h1 : S1x30.ShapeCasts S30) (h2 : S30.ShapeCasts S1x1x30)
    (h' : S1x1x30.Broadcasts S512x128x30) (p : Fin 512) (i : Fin 128) (c : Fin 30) :
    broadcastTo S512x128x30 (shapeCast S1x1x30 (shapeCast S30 g h1) h2) h' (ix3 p i c) = g (ix2 (0 : Fin 1) c) := by
  rw [broadcastTo_apply _ h' (ix3 p i c) (ix3 (0 : Fin 1) (0 : Fin 1) c) (fun a => match a with
    | ⟨0, _⟩ => by show 0 = if (1 : ℕ) = 1 then 0 else p.val; rw [if_pos rfl]
    | ⟨1, _⟩ => by show 0 = if (1 : ℕ) = 1 then 0 else i.val; rw [if_pos rfl]
    | ⟨2, _⟩ => by show c.val = if (30 : ℕ) = 1 then 0 else c.val; rw [if_neg (by decide)])]
  rw [shapeCast_apply (shapeCast S30 g h1) h2 (ix3 (0 : Fin 1) (0 : Fin 1) c) (ix1 c) (by
    rw [Shape.rowMajor_val_one, Shape.rowMajor_val_three]
    show c.val = (0 * 1 + 0) * 30 + c.val
    omega)]
  exact shapeCast_apply g h1 _ _ (by
    rw [Shape.rowMajor_val_two, Shape.rowMajor_val_one]
    show 0 * 30 + c.val = c.val
    omega)

/-- The basis tensor flattened feature-major: pair `c` is feature `c / 30`, centre `c % 30`. -/
theorem flatten_pairs_apply (v : S512x128x30.Idx → α) (h : S512x128x30.ShapeCasts S512x3840) (p : Fin 512) (c : Fin 3840) :
    shapeCast S512x3840 v h (ix2 p c)
      = v (ix3 p (⟨c.val / 30, by have := c.isLt; omega⟩ : Fin 128) (centreOf c)) :=
  shapeCast_apply v h _ _ (by
    rw [Shape.rowMajor_val_three, Shape.rowMajor_val_two]
    have := c.isLt
    show (p.val * 128 + c.val / 30) * 30 + c.val % 30 = p.val * 3840 + c.val
    omega)

end Layout

/-! ## The payloads -/

/-- The zero payload is zero. -/
theorem zero_apply (j : S512x512.Idx) : k0_pay1 (F := Ideal) j = 0 := by
  unfold k0_pay1
  simp only [shapeCast_self]
  show Ideal.ofBits .f32 0x00000000#32 = 0
  exact Ideal.ofBits_zero_f32

/-- The linear payload: the running sum plus the partial product `x · bw`. -/
theorem linear_apply (x : Vec Ideal S512x128 .f32) (bw : Vec Ideal S128x512 .bf16) (acc : Vec Ideal S512x512 .f32) (p q : Fin 512) :
    k0_pay2 x bw acc (ix2 p q) = acc (ix2 p q) + ∑ i : Fin 128, x (ix2 p i) * bw (ix2 i q) := by
  unfold k0_pay2
  simp only [shapeCast_self]
  show acc (ix2 p q) + FloatOps.matmul (F := Ideal) dot_S512x128_S128x512_S512x512_1_0_0_1_n_n none
      (truncf (F := Ideal) .bf16 x bitsLt_bf16_f32) bw (constant (F := Ideal) S512x512 .f32 0x00000000#32) (ix2 p q) = _
  rw [Cert.LibMatmulAt.matmul_zero_at dot_S512x128_S128x512_S512x512_1_0_0_1_n_n rfl rfl rfl rfl rfl rfl none
    (truncf (F := Ideal) .bf16 x bitsLt_bf16_f32) bw p q]
  rfl

/-- The radial-basis payload: the running sum plus the partial product `basis(x) · sw`. -/
theorem basis_apply (x : Vec Ideal S512x128 .f32) (g : Vec Ideal S1x30 .f32) (sw : Vec Ideal S3840x512 .bf16) (acc : Vec Ideal S512x512 .f32)
    (p q : Fin 512) :
    k0_pay3 x g sw acc (ix2 p q)
      = acc (ix2 p q) + ∑ c : Fin 3840,
          rbf (x (ix2 p (⟨c.val / 30, by have := c.isLt; omega⟩ : Fin 128))) (g (ix2 (0 : Fin 1) (centreOf c))) * sw (ix2 c q) := by
  unfold k0_pay3
  simp only [shapeCast_self]
  show acc (ix2 p q) + FloatOps.matmul (F := Ideal) dot_S512x3840_S3840x512_S512x512_1_0_0_1_n_n none _ sw
      (constant (F := Ideal) S512x512 .f32 0x00000000#32) (ix2 p q) = _
  rw [Cert.LibMatmulAt.matmul_zero_at dot_S512x3840_S3840x512_S512x512_1_0_0_1_n_n rfl rfl rfl rfl rfl rfl none _ sw p q]
  refine congrArg (acc (ix2 p q) + ·) (Finset.sum_congr rfl fun c _ => congrArg (· * sw (ix2 c q)) ?_)
  rw [truncf_apply, flatten_pairs_apply]
  show Ideal.exp (Ideal.ofBits .f32 0xC1A00000#32
        * (broadcastTo S512x128x30 (shapeCast S512x128x1 x shapeCasts_S512x128_S512x128x1) broadcasts_S512x128x1_S512x128x30 _
          - broadcastTo S512x128x30 (shapeCast S1x1x30 (shapeCast S30 g shapeCasts_S1x30_S30) shapeCasts_S30_S1x1x30) broadcasts_S1x1x30_S512x128x30 _)
        * (broadcastTo S512x128x30 (shapeCast S512x128x1 x shapeCasts_S512x128_S512x128x1) broadcasts_S512x128x1_S512x128x30 _
          - broadcastTo S512x128x30 (shapeCast S1x1x30 (shapeCast S30 g shapeCasts_S1x30_S30) shapeCasts_S30_S1x1x30) broadcasts_S1x1x30_S512x128x30 _)) = _
  rw [feature_broadcast_apply, centre_broadcast_apply]
  exact exp_scaled_diff_mul_diff _ _

/-- ONE POINT'S UPDATE at an entry. -/
theorem update_apply (x : Vec Ideal S512x128 .f32) (bw : Vec Ideal S128x512 .bf16) (sw : Vec Ideal S3840x512 .bf16) (g : Vec Ideal S1x30 .f32)
    (acc : Vec Ideal S512x512 .f32) (p q : Fin 512) :
    k0_pay3 x g sw (k0_pay2 x bw acc) (ix2 p q)
      = acc (ix2 p q) + ((∑ i : Fin 128, x (ix2 p i) * bw (ix2 i q))
          + ∑ c : Fin 3840, rbf (x (ix2 p (⟨c.val / 30, by have := c.isLt; omega⟩ : Fin 128))) (g (ix2 (0 : Fin 1) (centreOf c))) * sw (ix2 c q)) := by
  rw [basis_apply, linear_apply, add_assoc]

end Cert.KernelIdeal.Payload

end
-- ==== Proof.Blocks.lean ====
/-
  The four input blocks of a grid point, read at an entry from the argument arrays.

  The grid is 4 × 2 × 8: point `t` is batch tile `t / 16 % 4`, output-feature tile `t / 8 % 2` and feature run `t % 8`
  (the run index moves fastest). At that point
    • the `x` block [512, 128] is rows of the batch tile, features of the run;
    • the linear weights' block [128, 512] is cut from the TRANSPOSED, re-formatted weights the host prepared, so its
      entry `(i, q)` is the weight of output feature `q` of the tile at input feature `i` of the run;
    • the spline weights' block [3840, 512] is cut from the re-formatted spline weights: pairs of the run, output
      features of the tile;
    • the centres' block is the whole [1, 30] reshaping of the 30 centres.
  A change of float format is the identity at the ideal values.
-/
import proofs.«107807_j11879879540919_1_alg».proof.Proof.Gen.KernelIdeal.Frame
import proofs.«107807_j11879879540919_1_alg».proof.Proof.Spec
import Idealize.ShloMosaic.Lib.Pipeline.Value
import Idealize.ShloMosaic.Lib.Tactic
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.Blocks

open Cert.KernelIdeal Cert.KernelIdeal.Gen Idealize.ShloMosaic Idealize.ShloMosaic.TcCoe Idealize.ShloMosaic.Tactic Idealize.SL.Sem
open Idealize.ShloMosaic.StableHlo Idealize.ShloMosaic.ValueIdx Cert.RbfLayer

variable (m : (ℓ : Loc nD τ sig) → Buf (Elt Ideal) ℓ)

/-! ## A grid point's three coordinates -/

/-- The batch tile, the output-feature tile and the feature run of point number `n`. -/
abbrev batchTile (n : ℕ) : Fin 4 := ⟨n / 16 % 4, Nat.mod_lt _ (by decide)⟩
abbrev outTile (n : ℕ) : Fin 2 := ⟨n / 8 % 2, Nat.mod_lt _ (by decide)⟩
abbrev featRun (n : ℕ) : Fin 8 := ⟨n % 8, Nat.mod_lt _ (by decide)⟩

/-- The block indices of the five windows at every point, decided over the 64 points. -/
theorem index_x : ∀ t : Fin cfg0.N, win0_0.index t (0 : Fin 2) = t.val / 16 % 4 ∧ win0_0.index t (1 : Fin 2) = t.val % 8 :=
  (by decide +kernel : ∀ t : Fin grid0.N, win0_0.index t (0 : Fin 2) = t.val / 16 % 4 ∧ win0_0.index t (1 : Fin 2) = t.val % 8)
theorem index_bw : ∀ t : Fin cfg0.N, win0_1.index t (0 : Fin 2) = t.val % 8 ∧ win0_1.index t (1 : Fin 2) = t.val / 8 % 2 :=
  (by decide +kernel : ∀ t : Fin grid0.N, win0_1.index t (0 : Fin 2) = t.val % 8 ∧ win0_1.index t (1 : Fin 2) = t.val / 8 % 2)
theorem index_sw : ∀ t : Fin cfg0.N, win0_2.index t (0 : Fin 2) = t.val % 8 ∧ win0_2.index t (1 : Fin 2) = t.val / 8 % 2 :=
  (by decide +kernel : ∀ t : Fin grid0.N, win0_2.index t (0 : Fin 2) = t.val % 8 ∧ win0_2.index t (1 : Fin 2) = t.val / 8 % 2)
theorem index_g : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem index_out : ∀ t : Fin cfg0.N, win0_4.index t (0 : Fin 2) = t.val / 16 % 4 ∧ win0_4.index t (1 : Fin 2) = t.val / 8 % 2 :=
  (by decide +kernel : ∀ t : Fin grid0.N, win0_4.index t (0 : Fin 2) = t.val / 16 % 4 ∧ win0_4.index t (1 : Fin 2) = t.val / 8 % 2)

/-! ## What the host prepared before the region -/

/-- The linear weights as the region finds them: transposed, then re-formatted. -/
theorem bwT_array (c : Dev nD) :
    (V m c main_v1 : S1024x1024.Idx → Elt Ideal .bf16)
      = truncf (F := Ideal) .bf16 (transpose S1024x1024 [1, 0] (m ((c : Thread nD τ).loc main_arg2)) transposes_S1024x1024_S1024x1024_1_0) bitsLt_bf16_f32 := by
  dsimp only [Gen.V, Gen.hostOps0]
  after_results

/-- The spline weights as the region finds them: re-formatted. -/
theorem sw_array (c : Dev nD) :
    (V m c main_v2 : S30720x1024.Idx → Elt Ideal .bf16)
      = truncf (F := Ideal) .bf16 (m ((c : Thread nD τ).loc main_arg1)) bitsLt_bf16_f32 := by
  dsimp only [Gen.V, Gen.hostOps0]
  after_results

/-- The centres as the region finds them: the 30 centres as one row. -/
theorem g_array (c : Dev nD) :
    (V m c main_v3 : S1x30.Idx → Elt Ideal .f32) = shapeCast S1x30 (m ((c : Thread nD τ).loc main_arg3)) shapeCasts_S30_S1x30 := by
  dsimp only [Gen.V, Gen.hostOps0]
  after_results
  rfl

/-! ## The blocks at an entry -/

/-- `x`'s block: row `p` of the batch tile, feature `i` of the run. -/
theorem x_block_apply (c : Dev nD) (t : Fin cfg0.N) (p : Fin 512) (i : Fin 128) :
    (iblk m c 0 t : Vec Ideal S512x128 .f32) (ix2 p i)
      = m ((c : Thread nD τ).loc main_arg0) (ix2 (rowOf (batchTile t.val) p) (featIn (featRun t.val) i)) := by
  have hi := index_x t
  unfold iblk
  rw [View.read_apply]
  show V m c main_arg0 _ = _
  rw [V_main_arg0]
  refine congrArg _ (funext fun a => Fin.ext ?_)
  match a with
  | ⟨0, _⟩ => show win0_0.index t 0 * 512 + 1 * p.val = t.val / 16 % 4 * 512 + p.val; rw [hi.1]; omega
  | ⟨1, _⟩ => show win0_0.index t 1 * 128 + 1 * i.val = t.val % 8 * 128 + i.val; rw [hi.2]; omega

/-- The linear weights' block: input feature `i` of the run, output feature `q` of the tile — the weight matrix's
    entry (output feature, input feature). -/
theorem bw_block_apply (c : Dev nD) (t : Fin cfg0.N) (i : Fin 128) (q : Fin 512) :
    (iblk m c 1 t : Vec Ideal S128x512 .bf16) (ix2 i q)
      = m ((c : Thread nD τ).loc main_arg2) (ix2 (outOf (outTile t.val) q) (featIn (featRun t.val) i)) := by
  have hi := index_bw t
  unfold iblk
  rw [View.read_apply]
  show (V m c main_v1 : S1024x1024.Idx → Elt Ideal .bf16) _ = _
  rw [bwT_array, truncf_apply]
  have e : (((cfg0.win 1).blk t).view.emb (ix2 i q) : S1024x1024.Idx) = ix2 (featIn (featRun t.val) i) (outOf (outTile t.val) q) := by
    funext a; apply Fin.ext
    match a with
    | ⟨0, _⟩ => show win0_1.index t 0 * 128 + 1 * i.val = t.val % 8 * 128 + i.val; rw [hi.1]; omega
    | ⟨1, _⟩ => show win0_1.index t 1 * 512 + 1 * q.val = t.val / 8 % 2 * 512 + q.val; rw [hi.2]; omega
  rw [e]
  exact transpose_ix2_apply _ _ _ _

/-- The spline weights' block: pair `c'` of the run, output feature `q` of the tile. -/
theorem sw_block_apply (c : Dev nD) (t : Fin cfg0.N) (c' : Fin 3840) (q : Fin 512) :
    (iblk m c 2 t : Vec Ideal S3840x512 .bf16) (ix2 c' q)
      = m ((c : Thread nD τ).loc main_arg1) (ix2 (pairIn (featRun t.val) c') (outOf (outTile t.val) q)) := by
  have hi := index_sw t
  unfold iblk
  rw [View.read_apply]
  show (V m c main_v2 : S30720x1024.Idx → Elt Ideal .bf16) _ = _
  rw [sw_array, truncf_apply]
  refine congrArg _ (funext fun a => Fin.ext ?_)
  match a with
  | ⟨0, _⟩ => show win0_2.index t 0 * 3840 + 1 * c'.val = t.val % 8 * 3840 + c'.val; rw [hi.1]; omega
  | ⟨1, _⟩ => show win0_2.index t 1 * 512 + 1 * q.val = t.val / 8 % 2 * 512 + q.val; rw [hi.2]; omega

/-- The centres' block: centre `g`. -/
theorem g_block_apply (c : Dev nD) (t : Fin cfg0.N) (g : Fin 30) :
    (iblk m c 3 t : Vec Ideal S1x30 .f32) (ix2 (0 : Fin 1) g) = m ((c : Thread nD τ).loc main_arg3) (ix1 g) := by
  have hi := index_g t
  unfold iblk
  rw [View.read_apply]
  show (V m c main_v3 : S1x30.Idx → Elt Ideal .f32) _ = _
  rw [g_array]
  have e : (((cfg0.win 3).blk t).view.emb (ix2 (0 : Fin 1) g) : S1x30.Idx) = ix2 (0 : Fin 1) g := by
    funext a; apply Fin.ext
    match a with
    | ⟨0, _⟩ => show win0_3.index t 0 * 1 + 1 * 0 = 0; rw [hi.1]
    | ⟨1, _⟩ => show win0_3.index t 1 * 30 + 1 * g.val = g.val; rw [hi.2]; omega
  rw [e]
  exact shapeCast_a_1a_apply _ _ _ _

end Cert.KernelIdeal.Blocks

end
-- ==== Proof.Fold.lean ====
/-
  The running sum after any grid point, and what the last point of a run writes out.

  The 64 points fall into 8 runs of 8 consecutive points; a run shares its batch tile and its output-feature tile and
  goes through the 8 feature runs in order. The scratch is reset at a run's first point and every point adds its own
  two partial products, so after the `j`-th point of a run an entry of the scratch is the sum of the first `j + 1`
  addends of the run. At the last point that is all 8, which by the law of the layer is the layer's value at the
  entry's row and output feature; and the last point stores exactly that into the output block.
-/
import proofs.«107807_j11879879540919_1_alg».proof.Proof.Gen.KernelIdeal.Value
import proofs.«107807_j11879879540919_1_alg».proof.Proof.Pieces
import proofs.«107807_j11879879540919_1_alg».proof.Proof.Payload
import proofs.«107807_j11879879540919_1_alg».proof.Proof.Blocks
import proofs.«107807_j11879879540919_1_alg».proof.Proof.Spec

set_option maxRecDepth 16384

noncomputable section

open scoped BigOperators

namespace Cert.KernelIdeal.Fold

open Cert.KernelIdeal Cert.KernelIdeal.Gen Idealize.ShloMosaic Idealize.ShloMosaic.TcCoe Idealize.SL.Sem
open Idealize.ShloMosaic.ValueIdx Cert.RbfLayer Cert.KernelIdeal.Blocks

variable (m : (ℓ : Loc nD τ sig) → Buf (Elt Ideal) ℓ)

/-- The four argument arrays on core `c`. -/
abbrev argX (c : Dev nD) : FVec Ideal SX .f32 := m ((c : Thread nD τ).loc main_arg0)
abbrev argSw (c : Dev nD) : FVec Ideal SSw .f32 := m ((c : Thread nD τ).loc main_arg1)
abbrev argBw (c : Dev nD) : FVec Ideal SBw .f32 := m ((c : Thread nD τ).loc main_arg2)
abbrev argG (c : Dev nD) : FVec Ideal SG .f32 := m ((c : Thread nD τ).loc main_arg3)

/-- What point number `n` adds to the running sum, entry by entry: its run's share of the layer. -/
def addend (c : Dev nD) (n : ℕ) : S512x512.Idx → EReal := fun j =>
  tile (argX m c) (argSw m c) (argBw m c) (argG m c) (batchTile n) (outTile n) (featRun n) (j 0) (j 1)

/-- One point's update, on that point's own blocks, adds the point's addend. -/
theorem update_at_point (c : Dev nD) (t : Fin cfg0.N) (acc : Vec Ideal S512x512 .f32) (j : S512x512.Idx) :
    Pieces.pointUpdate (iblk m c 0 t) (iblk m c 1 t) (iblk m c 2 t) (iblk m c 3 t) acc j = acc j + addend m c t.val j := by
  obtain ⟨p, q, rfl⟩ : ∃ (p q : Fin 512), j = ix2 p q := ⟨j 0, j 1, eq_ix2 j⟩
  refine (Payload.update_apply (iblk m c 0 t) (iblk m c 1 t) (iblk m c 2 t) (iblk m c 3 t) acc p q).trans ?_
  unfold addend tile
  refine congrArg (acc (ix2 p q) + ·) (congrArg₂ (· + ·) (Finset.sum_congr rfl fun i _ => ?_) (Finset.sum_congr rfl fun c' _ => ?_))
  · rw [x_block_apply, bw_block_apply]
  · rw [x_block_apply, g_block_apply, sw_block_apply]

/-- The first point of a run leaves its own addend (over zero). -/
theorem first_point (c : Dev nD) (t : Fin cfg0.N) (hc0 : cond0_0 (grid0.coords t)) (hc1 : ¬cond0_1 (grid0.coords t)) (j : S512x512.Idx) :
    sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk m c 0 t) (iblk m c 1 t) (iblk m c 2 t) (iblk m c 3 t) j = 0 + addend m c t.val j := by
  refine (congrFun (Pieces.scratch_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk m c 0 t) (iblk m c 1 t) (iblk m c 2 t) (iblk m c 3 t)) j).trans ?_
  rw [update_at_point, Payload.zero_apply]

/-- A middle point adds its addend to what the point before left. -/
theorem middle_point (c : Dev nD) (t : Fin cfg0.N) (hc0 : ¬cond0_0 (grid0.coords t)) (hc1 : ¬cond0_1 (grid0.coords t))
    (acc : Vec Ideal S512x512 .f32) (j : S512x512.Idx) :
    sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk m c 0 t) (iblk m c 1 t) (iblk m c 2 t) (iblk m c 3 t) acc j = acc j + addend m c t.val j := by
  refine (congrFun (Pieces.scratch_middle (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk m c 0 t) (iblk m c 1 t) (iblk m c 2 t) (iblk m c 3 t) acc) j).trans ?_
  rw [update_at_point]

/-- So does the last point of a run, -/
theorem last_point (c : Dev nD) (t : Fin cfg0.N) (hc0 : ¬cond0_0 (grid0.coords t)) (hc1 : cond0_1 (grid0.coords t))
    (acc : Vec Ideal S512x512 .f32) (j : S512x512.Idx) :
    sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk m c 0 t) (iblk m c 1 t) (iblk m c 2 t) (iblk m c 3 t) acc j = acc j + addend m c t.val j := by
  refine (congrFun (Pieces.scratch_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk m c 0 t) (iblk m c 1 t) (iblk m c 2 t) (iblk m c 3 t) acc) j).trans ?_
  rw [update_at_point]

/-- which stores the same sum into the output block. -/
theorem last_point_out (c : Dev nD) (t : Fin cfg0.N) (hc0 : ¬cond0_0 (grid0.coords t)) (hc1 : cond0_1 (grid0.coords t))
    (acc : Vec Ideal S512x512 .f32) :
    out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk m c 0 t) (iblk m c 1 t) (iblk m c 2 t) (iblk m c 3 t) acc = sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk m c 0 t) (iblk m c 1 t) (iblk m c 2 t) (iblk m c 3 t) acc :=
  (Pieces.out_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk m c 0 t) (iblk m c 1 t) (iblk m c 2 t) (iblk m c 3 t) acc).trans
    (Pieces.scratch_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk m c 0 t) (iblk m c 1 t) (iblk m c 2 t) (iblk m c 3 t) acc).symm

/-- THE RUNNING SUM. After point `t`, the `(t % 8)`-th of its run, an entry of the scratch is the sum of the run's
    addends up to `t`'s. -/
theorem scratch_after (c : Dev nD) (t : Fin cfg0.N) (j : S512x512.Idx) :
    (outsAt0 m c t.val t.isLt).2 j = 0 + ∑ s ∈ Finset.range (t.val % 8 + 1), addend m c (8 * (t.val / 8) + s) j := by
  have hN : cfg0.N = 64 := N_0
  rw [Value.soutsAt0_0_eq m c t]
  refine Pipeline.accAt_add_apply _ _ (fun _ => 0) (addend m c) (8 * (t.val / 8)) 7 ?_ ?_ (t.val % 8) (by omega) _ j
  · intro h i
    have h0 : 8 * (t.val / 8) % 8 = 0 := by omega
    have h1 : ¬8 * (t.val / 8) % 8 = 7 := by omega
    unfold Value.scAt0_0
    rw [dif_pos h0, dif_neg h1]
    exact first_point m c ⟨8 * (t.val / 8), h⟩ _ _ i
  · intro n h acc i hlo hhi
    have h0 : ¬n % 8 = 0 := by omega
    unfold Value.scAt0_0
    rw [dif_neg h0]
    by_cases h1 : n % 8 = 7
    · rw [dif_pos h1]; exact last_point m c ⟨n, h⟩ _ _ acc i
    · rw [dif_neg h1]; exact middle_point m c ⟨n, h⟩ _ _ acc i

/-- The eight points of a run share their tiles, and the `k`-th handles feature run `k`. -/
theorem addend_in_run (c : Dev nD) (n : ℕ) (k : Fin 8) (j : S512x512.Idx) :
    addend m c (8 * (n / 8) + k.val) j
      = tile (argX m c) (argSw m c) (argBw m c) (argG m c) (batchTile n) (outTile n) k (j 0) (j 1) := by
  have hk := k.isLt
  unfold addend
  have e1 : batchTile (8 * (n / 8) + k.val) = batchTile n := Fin.ext (by show (8 * (n / 8) + k.val) / 16 % 4 = n / 16 % 4; omega)
  have e2 : outTile (8 * (n / 8) + k.val) = outTile n := Fin.ext (by show (8 * (n / 8) + k.val) / 8 % 2 = n / 8 % 2; omega)
  have e3 : featRun (8 * (n / 8) + k.val) = k := Fin.ext (by show (8 * (n / 8) + k.val) % 8 = k.val; omega)
  rw [e1, e2, e3]

/-- WHAT THE LAST POINT OF A RUN WRITES OUT: at entry `j` of the output block, the layer at row `j 0` of the point's
    batch tile and output feature `j 1` of its output-feature tile. -/
theorem out_at_last (c : Dev nD) (t : Fin cfg0.N) (h7 : t.val % 8 = 7) (j : S512x512.Idx) :
    (outsAt0 m c t.val t.isLt).1 j
      = layer (argX m c) (argSw m c) (argBw m c) (argG m c) (ix2 (rowOf (batchTile t.val) (j 0)) (outOf (outTile t.val) (j 1))) := by
  have h0 : ¬t.val % 8 = 0 := by omega
  have e : (outsAt0 m c t.val t.isLt).1 = (outsAt0 m c t.val t.isLt).2 := by
    rw [outsAt0_C m c t h0 h7]
    dsimp only
    exact last_point_out m c t (fun h => h0 ((hcond0_0 t).mp h)) ((hcond0_1 t).mpr h7)
      (outsAt0 m c (t.val - 1) (Nat.lt_of_le_of_lt (Nat.sub_le _ _) t.isLt)).2
  rw [e, scratch_after, h7, zero_add]
  refine Eq.trans ?_ (layer_eq_sum_tile (argX m c) (argSw m c) (argBw m c) (argG m c) (batchTile t.val) (outTile t.val) (j 0) (j 1)).symm
  show ∑ s ∈ Finset.range 8, addend m c (8 * (t.val / 8) + s) j = _
  rw [Finset.sum_range]
  exact Finset.sum_congr rfl fun k _ => addend_in_run m c t.val k j

end Cert.KernelIdeal.Fold

end
-- ==== Proof.LayerValue.lean ====
/-
  The output array after the run is the layer of the arguments.

  Only the last point of each run writes its output block back, and what it writes is the layer restricted to that
  block: row `p` of the point's batch tile, output feature `q` of its output-feature tile. The 8 blocks (4 batch tiles
  × 2 output-feature tiles) tile the [2048, 1024] array — entry `(b, o)` lies in the block written by the last point
  of run `(b / 512, o / 512)` —, so after the run the array holds the layer at every entry.
-/
import proofs.«107807_j11879879540919_1_alg».proof.Proof.Gen.KernelIdeal.Value
import proofs.«107807_j11879879540919_1_alg».proof.Proof.Fold

set_option maxRecDepth 16384

noncomputable section

namespace Cert.KernelIdeal.LayerValue

open Cert.KernelIdeal Cert.KernelIdeal.Gen Idealize.ShloMosaic Idealize.ShloMosaic.TcCoe Idealize.SL.Sem
open Idealize.ShloMosaic.Pipeline (Dat)
open Idealize.ShloMosaic.ValueIdx Cert.RbfLayer Cert.KernelIdeal.Blocks Cert.KernelIdeal.Fold

variable (m : (ℓ : Loc nD τ sig) → Buf (Elt Ideal) ℓ) (ρ : Dev nD → PrngReg)

/-- The layer of core `c`'s arguments, as contents of the result array. -/
abbrev result (c : Dev nD) : Buf (Elt Ideal) ((c : Thread nD τ).loc main_v4) :=
  layer (argX m c) (argSw m c) (argBw m c) (argG m c)

/-- What a writing point writes back is its block of the layer. -/
theorem flushed_eq (c : Dev nD) (t : Fin cfg0.N) (hf : (cfg0.win 4).flush t = true) :
    (dats m 0 c).flushed 4 t = ((cfg0.win 4).blk t).view.read (Elt Ideal) (result m c) := by
  have h7 : t.val % 8 = 7 := (flush0_4 t).mp hf
  have hi := index_out t
  rw [Value.flushed4]
  funext y
  rw [View.read_apply]
  refine (out_at_last m c t h7 ((cfg0.win 4).xinj (grid0.coords t) y)).trans ?_
  refine congrArg (result m c) (funext fun a => Fin.ext ?_)
  match a with
  | ⟨0, _⟩ => show t.val / 16 % 4 * 512 + (y 0).val = win0_4.index t 0 * 512 + 1 * (y 0).val; rw [hi.1]; omega
  | ⟨1, _⟩ => show t.val / 8 % 2 * 512 + (y 1).val = win0_4.index t 1 * 512 + 1 * (y 1).val; rw [hi.2]; omega

/-- Every entry of the array lies in the block some writing point writes. -/
theorem covered (i : S2048x1024.Idx) :
    ∃ t : Fin cfg0.N, (cfg0.win 4).flush t = true ∧ i ∈ ((cfg0.win 4).blk t).view.set := by
  have h0 : (i 0).val < 2048 := (i 0).isLt
  have h1 : (i 1).val < 1024 := (i 1).isLt
  have hN : cfg0.N = 64 := N_0
  have hlt : (i 0).val / 512 * 16 + (i 1).val / 512 * 8 + 7 < cfg0.N := by rw [hN]; omega
  obtain ⟨t, ht⟩ : ∃ t : Fin cfg0.N, t.val = (i 0).val / 512 * 16 + (i 1).val / 512 * 8 + 7 := ⟨⟨_, hlt⟩, rfl⟩
  refine ⟨t, (flush0_4 t).mpr (by rw [ht]; omega), ?_⟩
  have hi := index_out t
  show i ∈ ((View.whole main_v4).slice (win0_4.rect t)).set
  rw [View.set_slice_whole, Rect.mem_set_unit]
  intro a
  match a with
  | ⟨0, _⟩ =>
    show win0_4.index t 0 * 512 ≤ (i 0).val ∧ (i 0).val < win0_4.index t 0 * 512 + 512
    rw [hi.1, ht]; omega
  | ⟨1, _⟩ =>
    show win0_4.index t 1 * 512 ≤ (i 1).val ∧ (i 1).val < win0_4.index t 1 * 512 + 512
    rw [hi.2, ht]; omega

/-- So the output array ends holding the layer. -/
theorem final (c : Dev nD) : (dats m 0 c).arrAt 4 cfg0.N = result m c :=
  (dats m 0 c).arrAt_eq_of_cover 4 (result m c) (flushed_eq m c) covered

/-- The idealized kernel's run: the result array ends at the layer of the arguments, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.LayerValue

end
-- ==== Proof.RefValue.lean ====
/-
  The reference computes the layer.

  Read one operation at a time, the reference's result at batch row `b` and output feature `o` is
      ∑ i, x[b, i] · bw[o, i]  +  ∑ c, exp (-20 · ((x[b, ·] - g[·]) · (x[b, ·] - g[·]))) · sw[c, o],
  where the basis tensor [2048, 1024, 30] was flattened to [2048, 30720]: pair `c` of row `b` sits at flat position
  `b · 30720 + c`, whose feature is `c / 30` and whose centre is `c % 30`. That is `layer` as written.
-/
import proofs.«107807_j11879879540919_1_alg».proof.Proof.Gen.ReferenceIdeal.Read
import proofs.«107807_j11879879540919_1_alg».proof.Proof.Spec

noncomputable section

open scoped BigOperators

namespace Cert.ReferenceIdeal.RefValue

open Cert.ReferenceIdeal Cert.ReferenceIdeal.Read Idealize.ShloMosaic Idealize.ShloMosaic.ValueIdx Cert.RbfLayer

/-- The reference's result, as a function of the four arguments, is the layer. -/
theorem reference_is_layer (x0 : FVec Ideal S2048x1024 .f32) (x1 : FVec Ideal S30720x1024 .f32) (x2 : FVec Ideal S1024x1024 .f32)
    (x3 : FVec Ideal S30 .f32) :
    val_main_v12 (F := Ideal) x0 x1 x2 x3 = layer x0 x1 x2 x3 := by
  funext j
  rw [val_main_v12_apply, val_main_v0_apply, val_main_v11_apply]
  unfold layer
  refine congrArg₂ (· + ·) (Finset.sum_congr rfl fun k _ => ?_) (Finset.sum_congr rfl fun k _ => ?_)
  · -- the linear term: row `b` of x against row `o` of the weights
    have el : lidx_main_v0 j k = ix2 (j 0) k := funext fun a => Fin.ext (by match a with | ⟨0, _⟩ => rfl | ⟨1, _⟩ => rfl)
    have er : ridx_main_v0 j k = ix2 (j 1) k := funext fun a => Fin.ext (by match a with | ⟨0, _⟩ => rfl | ⟨1, _⟩ => rfl)
    rw [el, er]
    rfl
  · -- the radial-basis term: pair `k` of row `b`
    have hj := (j 0).isLt
    have hk := k.isLt
    rw [val_main_v10_apply, val_main_v9_apply, val_main_v8_apply, val_main_v7_apply, val_main_cst_apply, val_main_v6_apply,
      val_main_v5_apply, val_main_v3_apply, val_main_v1_apply, val_main_v4_apply, val_main_v2_apply]
    have ex : idx_main_v1 (idx_main_v3 (idx_main_v10 (lidx_main_v11 j k))) = ix2 (j 0) (featOf k) :=
      funext fun a => Fin.ext (by
        match a with
        | ⟨0, _⟩ => show ((j 0).val * 30720 + k.val) / 30720 = (j 0).val; omega
        | ⟨1, _⟩ => show ((j 0).val * 30720 + k.val) / 30 % 1024 = k.val / 30; omega)
    have eg : idx_main_v2 (idx_main_v4 (idx_main_v10 (lidx_main_v11 j k))) = ix1 (centreOf k) :=
      funext fun a => Fin.ext (by
        match a with
        | ⟨0, _⟩ => show ((j 0).val * 30720 + k.val) % 30 = k.val % 30; omega)
    have er : ridx_main_v11 j k = ix2 k (j 1) := funext fun a => Fin.ext (by match a with | ⟨0, _⟩ => rfl | ⟨1, _⟩ => rfl)
    rw [ex, eg, er]
    rfl

end Cert.ReferenceIdeal.RefValue

end
-- ==== Proof.lean ====
/-
  A radial-basis KAN dense layer, blocked over its input features, against the plain formula.

  For a batch `x` [2048, 1024], centres `g` [30], spline weights `sw` [30720, 1024] and linear weights `bw`
  [1024, 1024], both programs compute, at batch row `b` and output feature `o`,
      ∑ i, x[b, i] · bw[o, i]  +  ∑ (i, c), exp (-20 · (x[b, i] - g[c])²) · sw[30 i + c, o].
  The reference does it with two whole matrix products. The kernel walks a 4 × 2 × 8 grid — batch tile, output-feature
  tile, run of 128 input features —, keeps a 512 × 512 running sum that it zeroes at the first run, adds the run's two
  partial products to (the weights pre-transposed and re-formatted by the host, the basis values computed in the body as
  exp ((-20 · d) · d)), and writes out at the last run.

  Over the extended reals a change of float format is the identity, a matrix product into a zero accumulator is the
  plain sum over its contracted axis, multiplication is associative, and a sum may be regrouped and reordered freely;
  so the kernel's blocked, interleaved sum is the reference's, entry by entry, for every input (the precondition is not
  used by the value claim). The modules: the formula and the regrouping law (Spec); what a grid point leaves in the
  running sum (Pieces), read at an entry (Payload) from the argument arrays (Blocks); the running sum after any point
  and what the last point of a run writes out (Fold); the output array after the run (LayerValue); the reference read
  as the formula (RefValue).
-/
import proofs.«107807_j11879879540919_1_alg».proof.Defs
import proofs.«107807_j11879879540919_1_alg».proof.Proof.Gen.Kernel
import proofs.«107807_j11879879540919_1_alg».proof.Proof.Gen.Kernel.Skeleton
import proofs.«107807_j11879879540919_1_alg».proof.Proof.Gen.Kernel.Launch
import proofs.«107807_j11879879540919_1_alg».proof.Proof.Gen.Kernel.Points
import proofs.«107807_j11879879540919_1_alg».proof.Proof.Gen.Kernel.Frame
import proofs.«107807_j11879879540919_1_alg».proof.Proof.Gen.KernelIdeal
import proofs.«107807_j11879879540919_1_alg».proof.Proof.Gen.KernelIdeal.Skeleton
import proofs.«107807_j11879879540919_1_alg».proof.Proof.Gen.KernelIdeal.Launch
import proofs.«107807_j11879879540919_1_alg».proof.Proof.Gen.KernelIdeal.Points
import proofs.«107807_j11879879540919_1_alg».proof.Proof.Gen.KernelIdeal.Frame
import proofs.«107807_j11879879540919_1_alg».proof.Proof.Gen.ReferenceIdeal
import proofs.«107807_j11879879540919_1_alg».proof.Proof.Gen.Pre_finite_inputs
import proofs.«107807_j11879879540919_1_alg».proof.Proof.Gen.KernelIdeal.Value
import proofs.«107807_j11879879540919_1_alg».proof.Proof.Gen.ReferenceIdeal.Run
import proofs.«107807_j11879879540919_1_alg».proof.Proof.Gen.ReferenceIdeal.Read
import proofs.«107807_j11879879540919_1_alg».proof.Proof.LayerValue
import proofs.«107807_j11879879540919_1_alg».proof.Proof.RefValue
import Idealize.ShloMosaic.Adequacy
import Idealize.ShloMosaic.Init

noncomputable section

namespace Cert.Proof

open Idealize.ShloMosaic Idealize.SL.Sem

/-- The kernel as printed runs to the end without a fault and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the four arguments, both runs end with the result array at the layer of those arguments. -/
theorem algebraic : Cert.algebraic_KernelIdeal_ReferenceIdeal := by
  intro m ρ m' ρ' _ hagree
  refine ⟨fun c => Cert.KernelIdeal.LayerValue.result m c, Cert.KernelIdeal.LayerValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.reference_is_layer,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
